-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x24x24 : Shape := ⟨4, ![64, 2048, 24, 24]⟩
abbrev S64 : Shape := ⟨1, ![64]⟩
abbrev S_ : Shape := ⟨0, ![]⟩

class Facts : Prop where
  bcast_S_S64x2048x24x24 : S_.BroadcastsInDim S64x2048x24x24 (![] : Fin 0 → Fin S64x2048x24x24.rank)
  reducesTo_S64x2048x24x24_S_d0_1_2_3 : S64x2048x24x24.ReducesTo [0, 1, 2, 3] S_
  h_S_ : 0 < S_.numel

variable [Facts]

def fn {F : FTy → Type} [FloatOps F] (main_arg0 : FVec F S64x2048x24x24 .f32) (main_arg1 : FVec F S64x2048x24x24 .f32) (main_arg2 : IVec S64 32) : IVec S_ 1 :=
  let main_v0 : FVec F S64x2048x24x24 .f32 := Host.absf main_arg0
  let main_cst : FVec F S_ .f32 := constant S_ .f32 0x7F800000#32
  let main_v1 : FVec F S64x2048x24x24 .f32 := broadcastInDim S64x2048x24x24 ![] bcast_S_S64x2048x24x24 main_cst
  let main_v2 : IVec S64x2048x24x24 1 := cmpf .olt main_v0 main_v1
  let main_c : IVec S_ 1 := constantI S_ 1 1#1
  let main_v3 : IVec S_ 1 := (fun x v => Host.reduce IntOp.andi x v reducesTo_S64x2048x24x24_S_d0_1_2_3 h_S_) main_v2 main_c
  let main_v4 : FVec F S64x2048x24x24 .f32 := Host.absf main_arg1
  let main_cst_0 : FVec F S_ .f32 := constant S_ .f32 0x7F800000#32
  let main_v5 : FVec F S64x2048x24x24 .f32 := broadcastInDim S64x2048x24x24 ![] bcast_S_S64x2048x24x24 main_cst_0
  let main_v6 : IVec S64x2048x24x24 1 := cmpf .olt main_v4 main_v5
  let main_c_1 : IVec S_ 1 := constantI S_ 1 1#1
  let main_v7 : IVec S_ 1 := (fun x v => Host.reduce IntOp.andi x v reducesTo_S64x2048x24x24_S_d0_1_2_3 h_S_) main_v6 main_c_1
  let main_v8 : IVec S_ 1 := andi main_v3 main_v7
  main_v8
-- ==== Kernel.lean ====
abbrev S64x2048x24x24 : Shape := ⟨4, ![64, 2048, 24, 24]⟩
abbrev S64 : Shape := ⟨1, ![64]⟩
abbrev S64x2048x576 : Shape := ⟨3, ![64, 2048, 576]⟩
abbrev S64x576 : Shape := ⟨2, ![64, 576]⟩
abbrev S16x128x576 : Shape := ⟨3, ![16, 128, 576]⟩
abbrev S16x576 : Shape := ⟨2, ![16, 576]⟩
abbrev S_ : Shape := ⟨0, ![]⟩
abbrev S576x64 : Shape := ⟨2, ![576, 64]⟩
abbrev S64x64 : Shape := ⟨2, ![64, 64]⟩
abbrev S64x1 : Shape := ⟨2, ![64, 1]⟩
abbrev S1x64 : Shape := ⟨2, ![1, 64]⟩

abbrev nBuf : Space → Nat
  | .hbm => 63
  | .vmem => 8
  | .smem => 0
  | _ => 0

abbrev bufTy : (tb : Table) → Fin (tcTables nBuf tb) → BufTy
  | .hbm, ⟨0, _⟩ => ⟨S64x2048x24x24, .f32⟩
  | .hbm, ⟨1, _⟩ => ⟨S64x2048x24x24, .f32⟩
  | .hbm, ⟨2, _⟩ => ⟨S64, .i32⟩
  | .hbm, ⟨3, _⟩ => ⟨S64x2048x576, .f32⟩
  | .hbm, ⟨4, _⟩ => ⟨S64x2048x576, .f32⟩
  | .hbm, ⟨5, _⟩ => ⟨S64x576, .f32⟩
  | .hbm, ⟨6, _⟩ => ⟨S64x576, .f32⟩
  | .hbm, ⟨7, _⟩ => ⟨S64x576, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x576, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S576x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x1, .f32⟩
  | .hbm, ⟨25, _⟩ => ⟨S1x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x1, .i32⟩
  | .hbm, ⟨34, _⟩ => ⟨S1x64, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S64x64, .i1⟩
  | .hbm, ⟨44, _⟩ => ⟨S64x64, .i1⟩
  | .hbm, ⟨45, _⟩ => ⟨S64x64, .i1⟩
  | .hbm, ⟨46, _⟩ => ⟨S64x64, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S_, .f32⟩
  | .hbm, ⟨54, _⟩ => ⟨S_, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S16x128x576, .f32⟩
  | .local _ .vmem, ⟨1, _⟩ => ⟨S16x128x576, .f32⟩
  | .local _ .vmem, ⟨2, _⟩ => ⟨S16x128x576, .f32⟩
  | .local _ .vmem, ⟨3, _⟩ => ⟨S16x128x576, .f32⟩
  | .local _ .vmem, ⟨4, _⟩ => ⟨S16x576, .f32⟩
  | .local _ .vmem, ⟨5, _⟩ => ⟨S16x576, .f32⟩
  | .local _ .vmem, ⟨6, _⟩ => ⟨S16x576, .f32⟩
  | .local _ .vmem, ⟨7, _⟩ => ⟨S16x576, .f32⟩
  | _, _ => ⟨S64x2048x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x128x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x2048x24x24_S64x2048x576 : S64x2048x24x24.ShapeCasts S64x2048x576
  inb_S16x576_S16x576_0_0 : ∀ a, (![0, 0] : Fin 2 → Nat) a + S16x576.size a ≤ S16x576.size a
  h_S16x576 : 0 < S16x576.numel
  inb_S16x128x576_S16x128x576_0_0_0 : ∀ a, (![0, 0, 0] : Fin 3 → Nat) a + S16x128x576.size a ≤ S16x128x576.size a
  h_S16x128x576 : 0 < S16x128x576.numel
  shapeCasts_S16x128x576_S16x128x576 : S16x128x576.ShapeCasts S16x128x576
  shapeCasts_S16x576_S16x576 : S16x576.ShapeCasts S16x576
  reduces_S16x128x576_S16x576 : S16x128x576.Reduces [1] S16x576
  reducesTo_S64x576_S64_d1 : S64x576.ReducesTo [1] S64
  h_S_ : 0 < S_.numel
  bcast_S_S64 : S_.BroadcastsInDim S64 (![] : Fin 0 → Fin S64.rank)
  transposes_S64x576_S576x64_1_0 : S64x576.Transposes [1, 0] S576x64
  bcast_S_S64x64 : S_.BroadcastsInDim S64x64 (![] : Fin 0 → Fin S64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  natLt_1_32 : 1 < 32
  reducesTo_S64x64_S_d0_1 : S64x64.ReducesTo [0, 1] S_
  dot_S64x576_S576x64_S64x64_1_0_0_1_n_n_wf : DotDims.WF S64x576 S576x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x576.size a ≤ S64x2048x576.size a
  hwx0_0 : ∀ i : grid0.Coords, EltTy.bits .f32 = 32 ∨ (Rect.block (s := S64x2048x576) S16x128x576.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x576.size a ≤ S64x2048x576.size a
  hwx0_1 : ∀ i : grid0.Coords, EltTy.bits .f32 = 32 ∨ (Rect.block (s := S64x2048x576) S16x128x576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x576.size a ≤ S64x576.size a
  hwx0_2 : ∀ i : grid0.Coords, EltTy.bits .f32 = 32 ∨ (Rect.block (s := S64x576) S16x576.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x576.size a ≤ S64x576.size a
  hwx0_3 : ∀ i : grid0.Coords, EltTy.bits .f32 = 32 ∨ (Rect.block (s := S64x576) S16x576.size (cc0_transform_3 i) (hinb0_3 i)).WholeWords (EltTy.packing .f32)

variable [Facts₀]

def dot_S64x576_S576x64_S64x64_1_0_0_1_n_n : DotDims S64x576 S576x64 S64x64 where
  lhsContracting := [1]
  rhsContracting := [0]
  lhsNonContracting := [0]
  rhsNonContracting := [1]
  lhsBatch := []
  rhsBatch := []
  wf := dot_S64x576_S576x64_S64x64_1_0_0_1_n_n_wf

abbrev win0_0 : Pipeline.Window sig grid0 :=
  Pipeline.Window.ofSpec (Memref.whole main_v0) S16x128x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S16x576.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S16x576.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x24x24 : Shape := ⟨4, ![64, 2048, 24, 24]⟩
abbrev S64 : Shape := ⟨1, ![64]⟩
abbrev S_ : Shape := ⟨0, ![]⟩
abbrev S64x24x24 : Shape := ⟨3, ![64, 24, 24]⟩
abbrev S64x576 : Shape := ⟨2, ![64, 576]⟩
abbrev S64x64 : Shape := ⟨2, ![64, 64]⟩
abbrev S64x1 : Shape := ⟨2, ![64, 1]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S64x2048x24x24, .f32⟩
  | .hbm, ⟨1, _⟩ => ⟨S64x2048x24x24, .f32⟩
  | .hbm, ⟨2, _⟩ => ⟨S64, .i32⟩
  | .hbm, ⟨3, _⟩ => ⟨S64x2048x24x24, .f32⟩
  | .hbm, ⟨4, _⟩ => ⟨S_, .f32⟩
  | .hbm, ⟨5, _⟩ => ⟨S64x24x24, .f32⟩
  | .hbm, ⟨6, _⟩ => ⟨S64x576, .f32⟩
  | .hbm, ⟨7, _⟩ => ⟨S64x2048x24x24, .f32⟩
  | .hbm, ⟨8, _⟩ => ⟨S_, .f32⟩
  | .hbm, ⟨9, _⟩ => ⟨S64x24x24, .f32⟩
  | .hbm, ⟨10, _⟩ => ⟨S64x576, .f32⟩
  | .hbm, ⟨11, _⟩ => ⟨S64x576, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x576, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x1, .f32⟩
  | .hbm, ⟨28, _⟩ => ⟨S1x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x1, .i32⟩
  | .hbm, ⟨37, _⟩ => ⟨S1x64, .i32⟩
  | .hbm, ⟨38, _⟩ => ⟨S64x64, .i32⟩
  | .hbm, ⟨39, _⟩ => ⟨S64x64, .i32⟩
  | .hbm, ⟨40, _⟩ => ⟨S64x64, .i1⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S64x64, .i1⟩
  | .hbm, ⟨47, _⟩ => ⟨S64x64, .i1⟩
  | .hbm, ⟨48, _⟩ => ⟨S64x64, .i1⟩
  | .hbm, ⟨49, _⟩ => ⟨S64x64, .i32⟩
  | .hbm, ⟨50, _⟩ => ⟨S_, .i32⟩
  | .hbm, ⟨51, _⟩ => ⟨S_, .i32⟩
  | .hbm, ⟨52, _⟩ => ⟨S_, .f32⟩
  | .hbm, ⟨53, _⟩ => ⟨S_, .f32⟩
  | .hbm, ⟨54, _⟩ => ⟨S64x64, .f32⟩
  | .hbm, ⟨55, _⟩ => ⟨S64x64, .f32⟩
  | .hbm, ⟨56, _⟩ => ⟨S_, .f32⟩
  | .hbm, ⟨57, _⟩ => ⟨S_, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S64x2048x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_cst_8 : Ref sig .tc := ⟨.hbm, 52, rfl⟩
abbrev main_call0_v0 : Ref sig .tc := ⟨.hbm, 53, rfl⟩
abbrev main_call0_v1 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_c_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  reducesTo_S64x2048x24x24_S64x24x24_d1 : S64x2048x24x24.ReducesTo [1] S64x24x24
  h_S_ : 0 < S_.numel
  shapeCasts_S64x24x24_S64x576 : S64x24x24.ShapeCasts S64x576
  reducesTo_S64x576_S64_d1 : S64x576.ReducesTo [1] S64
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  natLt_1_32 : 1 < 32
  reducesTo_S64x64_S_d0_1 : S64x64.ReducesTo [0, 1] S_
  dot_S64x576_S64x576_S64x64_1_1_0_0_n_n_wf : DotDims.WF S64x576 S64x576 S64x64 [1] [1] [0] [0] [] []

variable [Facts₀]

def dot_S64x576_S64x576_S64x64_1_1_0_0_n_n : DotDims S64x576 S64x576 S64x64 where
  lhsContracting := [1]
  rhsContracting := [1]
  lhsNonContracting := [0]
  rhsNonContracting := [0]
  lhsBatch := []
  rhsBatch := []
  wf := dot_S64x576_S64x576_S64x64_1_1_0_0_n_n_wf

class Facts : Prop extends Facts₀ where

variable [Facts]
-- ==== Proof.CasePieces.lean ====
/-
  What one run of the kernel body leaves in its two output blocks, case by case, as values.

  The body keeps two [16, 576] accumulators, one per input. At the first channel block of a batch block it stores zeros
  into both and then adds, to each, its input block's squares summed over the block's 128 channels; at every later
  channel block it adds the same to what the block before left. Each accumulator's final store covers the whole block, so
  what the block holds afterwards is that store's value: `sqAcc x acc = acc + (sum over the block's channels of x * x)`,
  with `acc` the zero block in the first case and the previous contents in the other.
-/
import proofs.«109405_j48120813585001_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- A later channel block, first input: the accumulator `xo2` plus the squares of `x0` summed over its channels. -/
theorem later_v (c : Dev nD) (i : grid0.Coords) (a2 : Memref sig .tc .vmem S16x128x576 .f32) (h2 : a2.IsWhole)
    (a3 : Memref sig .tc .vmem S16x128x576 .f32) (h3 : a3.IsWhole) (a4 : Memref sig .tc .vmem S16x576 .f32) (h4 : a4.IsWhole)
    (a5 : Memref sig .tc .vmem S16x576 .f32) (h5 : a5.IsWhole) (hc : ¬cond0_0 i)
    (x0 x1 : Vec F S16x128x576 .f32) (xo2 xo3 : Vec F S16x576 .f32) :
    out0_B_2 c i a2 h2 a3 h3 a4 h4 a5 h5 hc x0 x1 xo2 xo3 = k0_pay3 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero off2]
  simp only [View.readAt_eq_ld, h2.read_unread, h4.read_unread, View.ld_unit_zero (S := S16x128x576) off3,
    View.ld_unit_zero (S := S16x576) off2]

/-- A later channel block, second input: the accumulator `xo3` plus the squares of `x1` summed over its channels. -/
theorem later_i (c : Dev nD) (i : grid0.Coords) (a2 : Memref sig .tc .vmem S16x128x576 .f32) (h2 : a2.IsWhole)
    (a3 : Memref sig .tc .vmem S16x128x576 .f32) (h3 : a3.IsWhole) (a4 : Memref sig .tc .vmem S16x576 .f32) (h4 : a4.IsWhole)
    (a5 : Memref sig .tc .vmem S16x576 .f32) (h5 : a5.IsWhole) (hc : ¬cond0_0 i)
    (x0 x1 : Vec F S16x128x576 .f32) (xo2 xo3 : Vec F S16x576 .f32) :
    out0_B_3 c i a2 h2 a3 h3 a4 h4 a5 h5 hc x0 x1 xo2 xo3 = k0_pay4 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero off2]
  simp only [View.readAt_eq_ld, h3.read_unread, h5.read_unread, View.ld_unit_zero (S := S16x128x576) off3,
    View.ld_unit_zero (S := S16x576) off2]

/-- The first channel block, first input: the zero block plus the squares of `x0` summed over its channels. -/
theorem first_v (c : Dev nD) (i : grid0.Coords) (a2 : Memref sig .tc .vmem S16x128x576 .f32) (h2 : a2.IsWhole)
    (a3 : Memref sig .tc .vmem S16x128x576 .f32) (h3 : a3.IsWhole) (a4 : Memref sig .tc .vmem S16x576 .f32) (h4 : a4.IsWhole)
    (a5 : Memref sig .tc .vmem S16x576 .f32) (h5 : a5.IsWhole) (hc : cond0_0 i)
    (x0 x1 : Vec F S16x128x576 .f32) :
    out0_A_2 c i a2 h2 a3 h3 a4 h4 a5 h5 hc x0 x1 = k0_pay3 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S16x576) off2, View.readCov_unit_zero (S := S16x576) _ off2]
  simp only [View.readAt_eq_ld, h2.read_unread, View.ld_unit_zero (S := S16x128x576) off3]

/-- The first channel block, second input: the zero block plus the squares of `x1` summed over its channels. -/
theorem first_i (c : Dev nD) (i : grid0.Coords) (a2 : Memref sig .tc .vmem S16x128x576 .f32) (h2 : a2.IsWhole)
    (a3 : Memref sig .tc .vmem S16x128x576 .f32) (h3 : a3.IsWhole) (a4 : Memref sig .tc .vmem S16x576 .f32) (h4 : a4.IsWhole)
    (a5 : Memref sig .tc .vmem S16x576 .f32) (h5 : a5.IsWhole) (hc : cond0_0 i)
    (x0 x1 : Vec F S16x128x576 .f32) :
    out0_A_3 c i a2 h2 a3 h3 a4 h4 a5 h5 hc x0 x1 = k0_pay4 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S16x576) off2, View.readCov_unit_zero (S := S16x576) _ off2]
  simp only [View.readAt_eq_ld, h3.read_unread, View.ld_unit_zero (S := S16x128x576) off3]

end Cert.KernelIdeal.Pieces

end
-- ==== Proof.ChannelSums.lean ====
/-
  The arithmetic both programs share, with no program in sight.

  An array `x` of shape [64, 2048, 576] over the extended reals has, at batch row `b` and pixel `p`, the channel sum of
  squares `lum x (b, p) = ∑ c, x (b, c, p) * x (b, c, p)` (and two such maps have the cross products `cross`). Cut the 2048 channels into 16 runs of 128 and the 64 batch rows
  into 4 runs of 16, and number the (batch run, channel run) pairs `n = 16 * (batch run) + (channel run)`: pair `n`
  contributes, at row `r` and pixel `p` of its batch run, the 128 squares `addend x n (r, p)`. The 16 pairs of one batch run
  contribute together exactly `lum x` on that run (`sum_addends`): a sum over 16 consecutive runs of 128 naturals is the
  sum over the first 2048 naturals (`sum_runs`), and nothing else is used of the extended reals than that their addition is
  commutative and associative. A quantity that starts at a batch run's first pair with that pair's contribution and gains each
  later pair's is, at the run's last pair, `lum x` there (`running_sum`, `full_sum`).
-/
import Idealize.ShloMosaic.Lib.ValueIdx

noncomputable section

open scoped BigOperators

namespace Cert.ChannelSums

open Idealize.ShloMosaic Idealize.ShloMosaic.ValueIdx

/-- The array read at natural coordinates: its entry where the three are inside the extents, zero elsewhere. -/
def at3 (x : (⟨3, ![64, 2048, 576]⟩ : Shape).Idx → EReal) (b c p : ℕ) : EReal :=
  if h : b < 64 ∧ c < 2048 ∧ p < 576 then x (ix3 ⟨b, h.1⟩ ⟨c, h.2.1⟩ ⟨p, h.2.2⟩) else 0

theorem at3_of_lt (x : (⟨3, ![64, 2048, 576]⟩ : Shape).Idx → EReal) {b c p : ℕ} (hb : b < 64) (hc : c < 2048) (hp : p < 576) :
    at3 x b c p = x (ix3 ⟨b, hb⟩ ⟨c, hc⟩ ⟨p, hp⟩) := dif_pos ⟨hb, hc, hp⟩

/-- The channel sum of squares: at (b, p) the sum over the 2048 channels `c` of `x (b, c, p)` squared. -/
def lum (x : (⟨3, ![64, 2048, 576]⟩ : Shape).Idx → EReal) : (⟨2, ![64, 576]⟩ : Shape).Idx → EReal :=
  fun j => ∑ c : Fin 2048, x (ix3 (⟨(j 0).val, idx2_lt0 j⟩ : Fin 64) c (⟨(j 1).val, idx2_lt1 j⟩ : Fin 576))
    * x (ix3 (⟨(j 0).val, idx2_lt0 j⟩ : Fin 64) c (⟨(j 1).val, idx2_lt1 j⟩ : Fin 576))

/-- A [64, 2048, 24, 24] array read as [64, 2048, 576]: the two pixel axes merged, row-major. -/
abbrev flat (a : (⟨4, ![64, 2048, 24, 24]⟩ : Shape).Idx → EReal) : (⟨3, ![64, 2048, 576]⟩ : Shape).Idx → EReal :=
  shapeCast ⟨3, ![64, 2048, 576]⟩ a (by decide)

/-- The cross products of two [64, 576] maps: at (i, j) the sum over the 576 pixels `p` of `Lv (i, p) * Li (j, p)`. -/
def cross (Lv Li : (⟨2, ![64, 576]⟩ : Shape).Idx → EReal) : (⟨2, ![64, 64]⟩ : Shape).Idx → EReal :=
  fun i => ∑ p : Fin 576, Lv (ix2 (⟨(i 0).val, idx2_lt0 i⟩ : Fin 64) p) * Li (ix2 (⟨(i 1).val, idx2_lt1 i⟩ : Fin 64) p)

/-- `m` consecutive runs of `k` naturals are the first `m * k` naturals. -/
theorem sum_runs {M : Type*} [AddCommMonoid M] (f : ℕ → M) (k : ℕ) : ∀ m : ℕ,
    ∑ s ∈ Finset.range m, ∑ q : Fin k, f (k * s + q.val) = ∑ c ∈ Finset.range (m * k), f c
  | 0 => by simp
  | m + 1 => by
    rw [Finset.sum_range_succ, sum_runs f k m, Nat.succ_mul, Finset.sum_range_add, Nat.mul_comm k m,
      ← Finset.sum_range (fun q => f (m * k + q))]

/-- What the pair number `n` — batch run `n / 16`, channel run `n % 16` — contributes at row `r = y 0` and pixel `p = y 1` of
    its batch run: the squares of the run's 128 channels there. -/
def addend (x : (⟨3, ![64, 2048, 576]⟩ : Shape).Idx → EReal) (n : ℕ) (y : (⟨2, ![16, 576]⟩ : Shape).Idx) : EReal :=
  ∑ q : Fin 128, at3 x (16 * (n / 16) + (y 0).val) (128 * (n % 16) + q.val) (y 1).val
    * at3 x (16 * (n / 16) + (y 0).val) (128 * (n % 16) + q.val) (y 1).val

/-- The 16 pairs of batch run `bi` contribute together the whole channel sum, on that run's rows. -/
theorem sum_addends (x : (⟨3, ![64, 2048, 576]⟩ : Shape).Idx → EReal) (bi : ℕ) (hbi : bi < 4)
    (y : (⟨2, ![16, 576]⟩ : Shape).Idx) (hrow : 16 * bi + (y 0).val < 64) :
    ∑ s ∈ Finset.range 16, addend x (16 * bi + s) y
      = lum x (ix2 (⟨16 * bi + (y 0).val, hrow⟩ : Fin 64) (⟨(y 1).val, idx2_lt1 y⟩ : Fin 576)) := by
  have h1 : (y 1).val < 576 := idx2_lt1 y
  -- the square at channel `c`, at this row and pixel
  let g : ℕ → EReal := fun c => at3 x (16 * bi + (y 0).val) c (y 1).val * at3 x (16 * bi + (y 0).val) c (y 1).val
  have e : ∀ s ∈ Finset.range 16, addend x (16 * bi + s) y = ∑ q : Fin 128, g (128 * s + q.val) := by
    intro s hs
    have hs' : s < 16 := Finset.mem_range.mp hs
    unfold addend
    rw [show (16 * bi + s) / 16 = bi by omega, show (16 * bi + s) % 16 = s by omega]
  rw [Finset.sum_congr rfl e, sum_runs g 128 16]
  show ∑ c ∈ Finset.range 2048, g c = _
  rw [Finset.sum_range]
  unfold lum
  refine Finset.sum_congr rfl fun c _ => ?_
  show at3 x _ _ _ * at3 x _ _ _ = _
  rw [at3_of_lt x hrow c.isLt h1]

/-- A running sum over the pairs of one batch run. Let `acc n` be a quantity indexed by the pair number (below `N`) that
    is the pair's own contribution at the first pair of each batch run (`n % 16 = 0`) and its predecessor plus the pair's
    contribution at every other pair. Then at pair `16 * b + j`, `j < 16`, it is the sum of the contributions of the pairs
    `16 * b … 16 * b + j` — by induction on `j`, whatever `N` is. -/
theorem running_sum (x : (⟨3, ![64, 2048, 576]⟩ : Shape).Idx → EReal) (N : ℕ)
    (acc : (n : ℕ) → n < N → (⟨2, ![16, 576]⟩ : Shape).Idx → EReal)
    (hfirst : ∀ (n : ℕ) (h : n < N), n % 16 = 0 → ∀ y, acc n h y = addend x n y)
    (hnext : ∀ (n : ℕ) (h : n + 1 < N), ¬(n + 1) % 16 = 0 → ∀ y, acc (n + 1) h y = acc n (Nat.lt_of_succ_lt h) y + addend x (n + 1) y)
    (b : ℕ) : ∀ (j : ℕ), j < 16 → ∀ (h : 16 * b + j < N) (y : (⟨2, ![16, 576]⟩ : Shape).Idx),
      acc (16 * b + j) h y = ∑ s ∈ Finset.range (j + 1), addend x (16 * b + s) y
  | 0, _, h, y => by
    rw [Finset.sum_range_one]
    exact hfirst (16 * b + 0) h (by omega) y
  | j + 1, hj, h, y => by
    rw [Finset.sum_range_succ _ (j + 1), ← running_sum x N acc hfirst hnext b j (by omega) (Nat.lt_of_succ_lt h) y]
    exact hnext (16 * b + j) h (by omega) y

/-- So at the last pair of a batch run, `t % 16 = 15`, the quantity is the whole channel sum on the run's rows. -/
theorem full_sum (x : (⟨3, ![64, 2048, 576]⟩ : Shape).Idx → EReal) (N : ℕ)
    (acc : (n : ℕ) → n < N → (⟨2, ![16, 576]⟩ : Shape).Idx → EReal)
    (hfirst : ∀ (n : ℕ) (h : n < N), n % 16 = 0 → ∀ y, acc n h y = addend x n y)
    (hnext : ∀ (n : ℕ) (h : n + 1 < N), ¬(n + 1) % 16 = 0 → ∀ y, acc (n + 1) h y = acc n (Nat.lt_of_succ_lt h) y + addend x (n + 1) y)
    (t : ℕ) (ht : t < N) (hlast : t % 16 = 15) (hb : t / 16 < 4) (y : (⟨2, ![16, 576]⟩ : Shape).Idx)
    (hrow : 16 * (t / 16) + (y 0).val < 64) :
    acc t ht y = lum x (ix2 (⟨16 * (t / 16) + (y 0).val, hrow⟩ : Fin 64) (⟨(y 1).val, idx2_lt1 y⟩ : Fin 576)) := by
  have h' : 16 * (t / 16) + 15 < N := by have := Nat.div_add_mod t 16; omega
  have same : ∀ (u : ℕ) (hu : u < N), u = t → acc u hu y = acc t ht y := fun u hu e => by subst e; rfl
  rw [← same (16 * (t / 16) + 15) h' (by have := Nat.div_add_mod t 16; omega),
    running_sum x N acc hfirst hnext (t / 16) 15 (by omega) h' y]
  exact sum_addends x (t / 16) hb y hrow

end Cert.ChannelSums

end
-- ==== Proof.KernelMaps.lean ====
/-
  What the kernel's region leaves in its two result arrays, at the ideal values: the channel sums of squares.

  The grid's 64 points are numbered `t = 16 * (batch block) + (channel block)`. Point `t` reads, of each input (as a
  [64, 2048, 576] array), the block of rows `16 * (t / 16) …` and channels `128 * (t % 16) …`, and adds to each
  accumulator its block's squares summed over the 128 channels (`addend`), starting from zero at `t % 16 = 0`. So after
  the last channel block, `t % 16 = 15`, the accumulator holds the sum over all 2048 channels on its 16 rows
  (`acc_full`, over `full_sum`); only those points write their block back, and the four of them tile the [64, 576]
  array. The two inputs go the same way: the second accumulator's step is the first's, the same function of its block.
-/
import proofs.«109405_j48120813585001_1_alg».proof.Proof.CasePieces
import proofs.«109405_j48120813585001_1_alg».proof.Proof.ChannelSums
import Idealize.ShloMosaic.PureOps.Ideal.Laws
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.Maps

open Cert.KernelIdeal Cert.KernelIdeal.Gen Cert.KernelIdeal.Pieces Cert.ChannelSums Idealize.ShloMosaic.ValueIdx

variable (m : (ℓ : Loc nD τ sig) → Buf (Elt Ideal) ℓ)

/-! ## One step of an accumulator, at an index -/

/-- The zero block is zero everywhere. -/
theorem zeroBlock_apply (y : S16x576.Idx) : (k0_pay1 (F := Ideal)) y = 0 := by
  show Ideal.ofBits .f32 0x00000000#32 = 0
  exact Ideal.ofBits_zero_f32

/-- The channel sum of a block's squares at row `y 0`, pixel `y 1`: the sum over the block's 128 channels. -/
theorem blockSq_apply (x : FVec Ideal S16x128x576 .f32) (y : S16x576.Idx)
    (hacc : (0x00000000#32 : BitVec 32) = 0x00000000#32) :
    multiReduction (F := Ideal) .add [1] S16x576 (mulf x x) 0x00000000#32 reduces_S16x128x576_S16x576 (.inl rfl) hacc y
      = ∑ q : Fin 128, x (ix3 (⟨(y 0).val, idx2_lt0 y⟩ : Fin 16) q (⟨(y 1).val, idx2_lt1 y⟩ : Fin 576))
          * x (ix3 (⟨(y 0).val, idx2_lt0 y⟩ : Fin 16) q (⟨(y 1).val, idx2_lt1 y⟩ : Fin 576)) := by
  refine (Ideal.multiReduction_add_single (mulf x x) 0x00000000#32 reduces_S16x128x576_S16x576 (.inl rfl) hacc y).trans ?_
  refine Finset.sum_congr rfl fun q _ => ?_
  have e : reduces_S16x128x576_S16x576.lift y q = ix3 (⟨(y 0).val, idx2_lt0 y⟩ : Fin 16) q (⟨(y 1).val, idx2_lt1 y⟩ : Fin 576) :=
    funext fun a => Fin.ext (by match a with | ⟨0, _⟩ => rfl | ⟨1, _⟩ => rfl | ⟨2, _⟩ => rfl)
  rw [e]
  rfl

/-- An accumulator's step: what was there plus the block's channel sum of squares. -/
theorem step_apply (x : Vec Ideal S16x128x576 .f32) (acc : Vec Ideal S16x576 .f32) (y : S16x576.Idx) :
    k0_pay3 (F := Ideal) x acc y
      = acc y + ∑ q : Fin 128, x (ix3 (⟨(y 0).val, idx2_lt0 y⟩ : Fin 16) q (⟨(y 1).val, idx2_lt1 y⟩ : Fin 576))
          * x (ix3 (⟨(y 0).val, idx2_lt0 y⟩ : Fin 16) q (⟨(y 1).val, idx2_lt1 y⟩ : Fin 576)) := by
  unfold k0_pay3
  simp only [shapeCast_self]
  exact congrArg (acc y + ·) (blockSq_apply x y rfl)

/-! ## An accumulator over a batch block, once for both inputs -/

/-- Let `blk t` be point `t`'s block of the array `X` (rows `16 * (t / 16) + r`, channels `128 * (t % 16) + q`), and `acc n` a
    block-valued quantity that is one step from the zero block at the first channel block of each batch block and one step
    from its predecessor elsewhere. At the last channel block of a batch block it is the channel sum of `X`'s squares on
    that batch block's rows. -/
theorem acc_full (X : (⟨3, ![64, 2048, 576]⟩ : Shape).Idx → EReal) (blk : Fin cfg0.N → Vec Ideal S16x128x576 .f32)
    (hblk : ∀ (t : Fin cfg0.N) (r : Fin 16) (q : Fin 128) (p : Fin 576),
      blk t (ix3 r q p) = at3 X (16 * (t.val / 16) + r.val) (128 * (t.val % 16) + q.val) p.val)
    (acc : (n : ℕ) → n < cfg0.N → Vec Ideal S16x576 .f32)
    (hreset : ∀ (n : ℕ) (h : n < cfg0.N), n % 16 = 0 → acc n h = k0_pay3 (F := Ideal) (blk ⟨n, h⟩) (k0_pay1 (F := Ideal)))
    (hstep : ∀ (n : ℕ) (h : n + 1 < cfg0.N), ¬(n + 1) % 16 = 0 →
      acc (n + 1) h = k0_pay3 (F := Ideal) (blk ⟨n + 1, h⟩) (acc n (Nat.lt_of_succ_lt h)))
    (t : Fin cfg0.N) (hlast : t.val % 16 = 15) (y : S16x576.Idx) (hrow : 16 * (t.val / 16) + (y 0).val < 64) :
    acc t.val t.isLt y = lum X (ix2 (⟨16 * (t.val / 16) + (y 0).val, hrow⟩ : Fin 64) (⟨(y 1).val, idx2_lt1 y⟩ : Fin 576)) := by
  have hN : t.val < 64 := lt_of_lt_of_eq t.isLt (show cfg0.N = 64 from N_0)
  -- one step at point `n` adds the point's addend
  have hadd : ∀ (n : ℕ) (h : n < cfg0.N) (a : Vec Ideal S16x576 .f32) (z : S16x576.Idx),
      k0_pay3 (F := Ideal) (blk ⟨n, h⟩) a z = a z + addend X n z := fun n h a z => by
    rw [step_apply]
    unfold addend
    refine congrArg (a z + ·) (Finset.sum_congr rfl fun q _ => ?_)
    rw [hblk]
  refine full_sum X cfg0.N acc (fun n h h0 z => ?_) (fun n h h0 z => ?_) t.val t.isLt hlast (by omega) y hrow
  · rw [hreset n h h0, hadd, zeroBlock_apply, zero_add]
  · rw [hstep n h h0, hadd]

/-! ## Where each window's block sits at a point -/

/-- Decided over the grid: an input's block index is (batch block, channel block, 0), an output's (batch block, 0). -/
theorem pointIdx : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 2) = t.val / 16 ∧ win0_2.index t (1 : Fin 2) = 0
    ∧ win0_3.index t (0 : Fin 2) = t.val / 16 ∧ win0_3.index t (1 : Fin 2) = 0 :=
  (by decide +kernel : ∀ t : Fin grid0.N, _)

/-! ## The first input and its result array -/

/-- The first input as the region finds it (the reshaped argument), as extended reals. -/
abbrev xv (c : Dev nD) : (⟨3, ![64, 2048, 576]⟩ : Shape).Idx → EReal := V m c main_v0

/-- Its block at point `t`, at its literal type. -/
abbrev blkV (c : Dev nD) (t : Fin cfg0.N) : Vec Ideal S16x128x576 .f32 := iblk m c 0 t

theorem blkV_apply (c : Dev nD) (t : Fin cfg0.N) (r : Fin 16) (q : Fin 128) (p : Fin 576) :
    blkV m c t (ix3 r q p) = at3 (xv m c) (16 * (t.val / 16) + r.val) (128 * (t.val % 16) + q.val) p.val := by
  have hN : t.val < 64 := lt_of_lt_of_eq t.isLt (show cfg0.N = 64 from N_0)
  rw [at3_of_lt _ (by omega) (by omega) p.isLt]
  show iblk m c 0 t (ix3 r q p) = _
  unfold iblk
  rw [View.read_apply]
  show V m c main_v0 _ = V m c main_v0 _
  refine congrArg (V m c main_v0) (funext fun a => Fin.ext ?_)
  obtain ⟨e0, e1, e2, -⟩ := pointIdx t
  match a with
  | ⟨0, _⟩ => show win0_0.index t (0 : Fin 3) * 16 + 1 * r.val = 16 * (t.val / 16) + r.val; rw [e0]; omega
  | ⟨1, _⟩ => show win0_0.index t (1 : Fin 3) * 128 + 1 * q.val = 128 * (t.val % 16) + q.val; rw [e1]; omega
  | ⟨2, _⟩ => show win0_0.index t (2 : Fin 3) * 576 + 1 * p.val = p.val; rw [e2]; omega

/-- What the first accumulator's staging buffer holds after point `n`. -/
abbrev accV (c : Dev nD) (n : ℕ) (h : n < cfg0.N) : Vec Ideal S16x576 .f32 := (outsAt0 m c n h).1

theorem accV_reset (c : Dev nD) (n : ℕ) (h : n < cfg0.N) (h0 : n % 16 = 0) :
    accV m c n h = k0_pay3 (F := Ideal) (blkV m c ⟨n, h⟩) (k0_pay1 (F := Ideal)) := by
  show (outsAt0 m c (⟨n, h⟩ : Fin cfg0.N).val (⟨n, h⟩ : Fin cfg0.N).isLt).1 = _
  rw [outsAt0_A m c ⟨n, h⟩ h0]
  dsimp only
  exact first_v (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) ((hcond0_0 ⟨n, h⟩).mpr h0) (iblk m c 0 ⟨n, h⟩) (iblk m c 1 ⟨n, h⟩)

theorem accV_step (c : Dev nD) (n : ℕ) (h : n + 1 < cfg0.N) (h0 : ¬(n + 1) % 16 = 0) :
    accV m c (n + 1) h = k0_pay3 (F := Ideal) (blkV m c ⟨n + 1, h⟩) (accV m c n (Nat.lt_of_succ_lt h)) := by
  show (outsAt0 m c (⟨n + 1, h⟩ : Fin cfg0.N).val (⟨n + 1, h⟩ : Fin cfg0.N).isLt).1 = _
  rw [outsAt0_B m c ⟨n + 1, h⟩ h0]
  dsimp only
  exact later_v (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (fun hh => h0 ((hcond0_0 ⟨n + 1, h⟩).mp hh))
    (iblk m c 0 ⟨n + 1, h⟩) (iblk m c 1 ⟨n + 1, h⟩) (outsAt0 m c n (Nat.lt_of_succ_lt h)).1 (outsAt0 m c n (Nat.lt_of_succ_lt h)).2

/-- The first result array's contents: the channel sums of squares of the first input. -/
abbrev lumV (c : Dev nD) : Buf (Elt Ideal) ((c : Thread nD τ).loc main_v2_0) := lum (xv m c)

/-- What a writing point writes back to the first result is its block of the channel sums. -/
theorem flushedV (c : Dev nD) (t : Fin cfg0.N) (hf : (cfg0.win 2).flush t = true) :
    (dats m 0 c).flushed 2 t = ((cfg0.win 2).blk t).view.read (Elt Ideal) (lumV m c) := by
  have h15 : t.val % 16 = 15 := (flush0_2 t).mp hf
  have hN : t.val < 64 := lt_of_lt_of_eq t.isLt (show cfg0.N = 64 from N_0)
  show (cfg0.win 2).cut (grid0.coords t) ((dats m 0 c).after 2 t) = _
  rw [after0_2]
  funext y
  have hy0 : (y 0).val < 16 := idx2_lt0 (n0 := 16) (n1 := 576) y
  show accV m c t.val t.isLt y = lumV m c (((cfg0.win 2).blk t).view.emb y)
  rw [acc_full (xv m c) (blkV m c) (blkV_apply m c) (accV m c) (accV_reset m c) (accV_step m c) t h15 y (by omega)]
  refine congrArg (lum (xv m c)) (funext fun a => Fin.ext ?_)
  obtain ⟨-, -, -, -, -, -, e6, e7, -⟩ := pointIdx t
  match a with
  | ⟨0, _⟩ => show 16 * (t.val / 16) + (y 0).val = win0_2.index t (0 : Fin 2) * 16 + 1 * (y 0).val; rw [e6]; omega
  | ⟨1, _⟩ => show (y 1).val = win0_2.index t (1 : Fin 2) * 576 + 1 * (y 1).val; rw [e7]; omega

/-- An index of the first result array is in point `t`'s block iff each coordinate is in the block's range. -/
theorem mem_blkV (t : Fin cfg0.N) (i : S64x576.Idx) :
    i ∈ ((cfg0.win 2).blk t).view.set
      ↔ ∀ a : Fin 2, win0_2.index t a * S16x576.size a ≤ (i a).val ∧ (i a).val < win0_2.index t a * S16x576.size a + S16x576.size a := by
  show i ∈ ((View.whole main_v2_0).slice (win0_2.rect t)).set ↔ _
  rw [View.set_slice_whole, Rect.mem_set_unit]
  exact Iff.rfl

/-- The four writing points tile the first result array, so it ends holding the channel sums. -/
theorem finalV (c : Dev nD) : (dats m 0 c).arrAt 2 cfg0.N = lumV m c :=
  (dats m 0 c).arrAt_eq_of_cover 2 (lumV m c) (flushedV m c) fun i => by
    have hi0 : (i 0).val < 64 := idx2_lt0 (n0 := 64) (n1 := 576) i
    have hi1 : (i 1).val < 576 := idx2_lt1 (n0 := 64) (n1 := 576) i
    have hlt : 16 * ((i 0).val / 16) + 15 < cfg0.N := by rw [show cfg0.N = 64 from N_0]; omega
    obtain ⟨-, -, -, -, -, -, e6, e7, -⟩ := pointIdx ⟨16 * ((i 0).val / 16) + 15, hlt⟩
    refine ⟨⟨16 * ((i 0).val / 16) + 15, hlt⟩, (flush0_2 _).mpr (by show (16 * ((i 0).val / 16) + 15) % 16 = 15; omega), ?_⟩
    rw [mem_blkV]
    intro a
    match a with
    | ⟨0, _⟩ =>
      show win0_2.index _ (0 : Fin 2) * 16 ≤ (i 0).val ∧ (i 0).val < win0_2.index _ (0 : Fin 2) * 16 + 16
      rw [e6]
      show (16 * ((i 0).val / 16) + 15) / 16 * 16 ≤ (i 0).val ∧ (i 0).val < (16 * ((i 0).val / 16) + 15) / 16 * 16 + 16
      omega
    | ⟨1, _⟩ =>
      show win0_2.index _ (1 : Fin 2) * 576 ≤ (i 1).val ∧ (i 1).val < win0_2.index _ (1 : Fin 2) * 576 + 576
      rw [e7]
      omega

/-! ## The second input and its result array

The same road through the second pair of windows; its accumulator's step and zero block are the first's, the same
functions (`later_i`, `first_i` state them under their own names, equal to these by unfolding). -/

/-- The second input as the region finds it. -/
abbrev xi (c : Dev nD) : (⟨3, ![64, 2048, 576]⟩ : Shape).Idx → EReal := V m c main_v1

abbrev blkI (c : Dev nD) (t : Fin cfg0.N) : Vec Ideal S16x128x576 .f32 := iblk m c 1 t

theorem blkI_apply (c : Dev nD) (t : Fin cfg0.N) (r : Fin 16) (q : Fin 128) (p : Fin 576) :
    blkI m c t (ix3 r q p) = at3 (xi m c) (16 * (t.val / 16) + r.val) (128 * (t.val % 16) + q.val) p.val := by
  have hN : t.val < 64 := lt_of_lt_of_eq t.isLt (show cfg0.N = 64 from N_0)
  rw [at3_of_lt _ (by omega) (by omega) p.isLt]
  show iblk m c 1 t (ix3 r q p) = _
  unfold iblk
  rw [View.read_apply]
  show V m c main_v1 _ = V m c main_v1 _
  refine congrArg (V m c main_v1) (funext fun a => Fin.ext ?_)
  obtain ⟨-, -, -, e3, e4, e5, -⟩ := pointIdx t
  match a with
  | ⟨0, _⟩ => show win0_1.index t (0 : Fin 3) * 16 + 1 * r.val = 16 * (t.val / 16) + r.val; rw [e3]; omega
  | ⟨1, _⟩ => show win0_1.index t (1 : Fin 3) * 128 + 1 * q.val = 128 * (t.val % 16) + q.val; rw [e4]; omega
  | ⟨2, _⟩ => show win0_1.index t (2 : Fin 3) * 576 + 1 * p.val = p.val; rw [e5]; omega

abbrev accI (c : Dev nD) (n : ℕ) (h : n < cfg0.N) : Vec Ideal S16x576 .f32 := (outsAt0 m c n h).2

theorem accI_reset (c : Dev nD) (n : ℕ) (h : n < cfg0.N) (h0 : n % 16 = 0) :
    accI m c n h = k0_pay3 (F := Ideal) (blkI m c ⟨n, h⟩) (k0_pay1 (F := Ideal)) := by
  show (outsAt0 m c (⟨n, h⟩ : Fin cfg0.N).val (⟨n, h⟩ : Fin cfg0.N).isLt).2 = _
  rw [outsAt0_A m c ⟨n, h⟩ h0]
  dsimp only
  exact first_i (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) ((hcond0_0 ⟨n, h⟩).mpr h0) (iblk m c 0 ⟨n, h⟩) (iblk m c 1 ⟨n, h⟩)

theorem accI_step (c : Dev nD) (n : ℕ) (h : n + 1 < cfg0.N) (h0 : ¬(n + 1) % 16 = 0) :
    accI m c (n + 1) h = k0_pay3 (F := Ideal) (blkI m c ⟨n + 1, h⟩) (accI m c n (Nat.lt_of_succ_lt h)) := by
  show (outsAt0 m c (⟨n + 1, h⟩ : Fin cfg0.N).val (⟨n + 1, h⟩ : Fin cfg0.N).isLt).2 = _
  rw [outsAt0_B m c ⟨n + 1, h⟩ h0]
  dsimp only
  exact later_i (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (fun hh => h0 ((hcond0_0 ⟨n + 1, h⟩).mp hh))
    (iblk m c 0 ⟨n + 1, h⟩) (iblk m c 1 ⟨n + 1, h⟩) (outsAt0 m c n (Nat.lt_of_succ_lt h)).1 (outsAt0 m c n (Nat.lt_of_succ_lt h)).2

/-- The second result array's contents: the channel sums of squares of the second input. -/
abbrev lumI (c : Dev nD) : Buf (Elt Ideal) ((c : Thread nD τ).loc main_v2_1) := lum (xi m c)

theorem flushedI (c : Dev nD) (t : Fin cfg0.N) (hf : (cfg0.win 3).flush t = true) :
    (dats m 0 c).flushed 3 t = ((cfg0.win 3).blk t).view.read (Elt Ideal) (lumI m c) := by
  have h15 : t.val % 16 = 15 := (flush0_3 t).mp hf
  have hN : t.val < 64 := lt_of_lt_of_eq t.isLt (show cfg0.N = 64 from N_0)
  show (cfg0.win 3).cut (grid0.coords t) ((dats m 0 c).after 3 t) = _
  rw [after0_3]
  funext y
  have hy0 : (y 0).val < 16 := idx2_lt0 (n0 := 16) (n1 := 576) y
  show accI m c t.val t.isLt y = lumI m c (((cfg0.win 3).blk t).view.emb y)
  rw [acc_full (xi m c) (blkI m c) (blkI_apply m c) (accI m c) (accI_reset m c) (accI_step m c) t h15 y (by omega)]
  refine congrArg (lum (xi m c)) (funext fun a => Fin.ext ?_)
  obtain ⟨-, -, -, -, -, -, -, -, e8, e9⟩ := pointIdx t
  match a with
  | ⟨0, _⟩ => show 16 * (t.val / 16) + (y 0).val = win0_3.index t (0 : Fin 2) * 16 + 1 * (y 0).val; rw [e8]; omega
  | ⟨1, _⟩ => show (y 1).val = win0_3.index t (1 : Fin 2) * 576 + 1 * (y 1).val; rw [e9]; omega

theorem mem_blkI (t : Fin cfg0.N) (i : S64x576.Idx) :
    i ∈ ((cfg0.win 3).blk t).view.set
      ↔ ∀ a : Fin 2, win0_3.index t a * S16x576.size a ≤ (i a).val ∧ (i a).val < win0_3.index t a * S16x576.size a + S16x576.size a := by
  show i ∈ ((View.whole main_v2_1).slice (win0_3.rect t)).set ↔ _
  rw [View.set_slice_whole, Rect.mem_set_unit]
  exact Iff.rfl

theorem finalI (c : Dev nD) : (dats m 0 c).arrAt 3 cfg0.N = lumI m c :=
  (dats m 0 c).arrAt_eq_of_cover 3 (lumI m c) (flushedI m c) fun i => by
    have hi0 : (i 0).val < 64 := idx2_lt0 (n0 := 64) (n1 := 576) i
    have hi1 : (i 1).val < 576 := idx2_lt1 (n0 := 64) (n1 := 576) i
    have hlt : 16 * ((i 0).val / 16) + 15 < cfg0.N := by rw [show cfg0.N = 64 from N_0]; omega
    obtain ⟨-, -, -, -, -, -, -, -, e8, e9⟩ := pointIdx ⟨16 * ((i 0).val / 16) + 15, hlt⟩
    refine ⟨⟨16 * ((i 0).val / 16) + 15, hlt⟩, (flush0_3 _).mpr (by show (16 * ((i 0).val / 16) + 15) % 16 = 15; omega), ?_⟩
    rw [mem_blkI]
    intro a
    match a with
    | ⟨0, _⟩ =>
      show win0_3.index _ (0 : Fin 2) * 16 ≤ (i 0).val ∧ (i 0).val < win0_3.index _ (0 : Fin 2) * 16 + 16
      rw [e8]
      show (16 * ((i 0).val / 16) + 15) / 16 * 16 ≤ (i 0).val ∧ (i 0).val < (16 * ((i 0).val / 16) + 15) / 16 * 16 + 16
      omega
    | ⟨1, _⟩ =>
      show win0_3.index _ (1 : Fin 2) * 576 ≤ (i 1).val ∧ (i 1).val < win0_3.index _ (1 : Fin 2) * 576 + 576
      rw [e9]
      omega

end Cert.KernelIdeal.Maps

end
-- ==== Proof.Loss.lean ====
/-
  The pairwise loss both programs compute from the two channel-sum maps, as one function.

  With `Lv`, `Li` the [64, 576] maps and `X (i, j)` their cross products `∑ p, Lv (i, p) * Li (j, p)`:
  `meanSq L b = (∑ p, L (b, p) * L (b, p)) / 576`; `pairMse (i, j) = meanSq Lv i + meanSq Li j - 2 * (X (i, j) / 576)`;
  `pairMask (i, j)` says the labels of `i` and `j` agree and `i ≠ j`; the loss is the sum of `pairMse` over the masked
  pairs divided by their number (at least 1), and zero when there is no such pair. The two programs differ before this
  point only (how the maps and the cross products are reached), so they share this function word for word.
-/
import proofs.«109405_j48120813585001_1_alg».proof.Proof.Gen.KernelIdeal
import proofs.«109405_j48120813585001_1_alg».proof.Proof.ChannelSums

noncomputable section

open Idealize.ShloMosaic

namespace Cert.PairLoss

open Cert.KernelIdeal Cert.KernelIdeal.Gen

variable {F : FTy → Type} [FloatOps F]

/-- Per batch row, the mean over the 576 pixels of the map squared. -/
def meanSq (L : FVec F S64x576 .f32) : FVec F S64 .f32 :=
  Host.divf (Host.reduceAdd (mulf L L) (constant S_ .f32 0x00000000#32) reducesTo_S64x576_S64_d1 h_S_)
    (broadcastInDim S64 ![] bcast_S_S64 (constant S_ .f32 0x44100000#32))

/-- The pairwise mean squared error from the two row means and the cross products. -/
def pairMse (Lv Li : FVec F S64x576 .f32) (X : FVec F S64x64 .f32) : FVec F S64x64 .f32 :=
  subf
    (addf (broadcastInDim S64x64 ![0, 1] bcast_S64x1_S64x64_0_1 (broadcastInDim S64x1 ![0] bcast_S64_S64x1_0 (meanSq Lv)))
      (broadcastInDim S64x64 ![0, 1] bcast_S1x64_S64x64_0_1 (broadcastInDim S1x64 ![1] bcast_S64_S1x64_1 (meanSq Li))))
    (mulf (broadcastInDim S64x64 ![] bcast_S_S64x64 (constant S_ .f32 0x40000000#32))
      (Host.divf X (broadcastInDim S64x64 ![] bcast_S_S64x64 (constant S_ .f32 0x44100000#32))))

/-- Pairs of distinct rows with the same label. -/
def pairMask (lab : IVec S64 32) : IVec S64x64 1 :=
  andi
    (cmpi .eq (broadcastInDim S64x64 ![0, 1] bcast_S64x1_S64x64_0_1 (broadcastInDim S64x1 ![0] bcast_S64_S64x1_0 lab))
      (broadcastInDim S64x64 ![0, 1] bcast_S1x64_S64x64_0_1 (broadcastInDim S1x64 ![1] bcast_S64_S1x64_1 lab)))
    (noti (cmpi .eq (addi (iotaInDim S64x64 32 0) (broadcastInDim S64x64 ![] bcast_S_S64x64 (constantI S_ 32 0#32)))
      (iotaInDim S64x64 32 1)))

/-- How many such pairs. -/
def pairCount (lab : IVec S64 32) : IVec S_ 32 :=
  Host.reduce IntOp.addi (extui 32 (pairMask lab) natLt_1_32) (constantI S_ 32 0#32) reducesTo_S64x64_S_d0_1 h_S_

/-- The loss: the masked sum of the pairwise errors over the pair count, zero without pairs. -/
def loss (Lv Li : FVec F S64x576 .f32) (X : FVec F S64x64 .f32) (lab : IVec S64 32) : FVec F S_ .f32 :=
  select (cmpi .sgt (pairCount lab) (constantI S_ 32 0#32))
    (Host.divf
      (Host.reduceAdd
        (select (pairMask lab) (pairMse Lv Li X)
          (broadcastInDim S64x64 ![] bcast_S_S64x64 (id (constant S_ .f32 0x00000000#32))))
        (constant S_ .f32 0x00000000#32) reducesTo_S64x64_S_d0_1 h_S_)
      (sitofp .f32 (maxsi (pairCount lab) (constantI S_ 32 1#32))))
    (constant S_ .f32 0x00000000#32)

/-- What both programs compute, as one function of the three arguments at the ideal values: the loss of the channel sums
    of squares of the two flattened inputs, with their cross products. -/
def spec (a0 a1 : (⟨4, ![64, 2048, 24, 24]⟩ : Shape).Idx → EReal) (lab : IVec S64 32) : FVec Ideal S_ .f32 :=
  loss (F := Ideal) (Cert.ChannelSums.lum (Cert.ChannelSums.flat a0)) (Cert.ChannelSums.lum (Cert.ChannelSums.flat a1))
    (Cert.ChannelSums.cross (Cert.ChannelSums.lum (Cert.ChannelSums.flat a0)) (Cert.ChannelSums.lum (Cert.ChannelSums.flat a1))) lab

end Cert.PairLoss

end
-- ==== Proof.KernelLoss.lean ====
/-
  The kernel's result: the shared loss of the two channel-sum maps.

  Before the region the two arguments are flattened to [64, 2048, 576] (`xv_eq`, `xi_eq`); the region leaves the channel
  sums `lum` of them in its two result arrays (KernelMaps); the lines after it transpose the second map and contract the
  first map's pixel axis with the transposed map's, which is `cross` (`kerCross`: the transposed map at (p, j) is the map at
  (j, p)), and go on as the shared `loss` does.
-/
import proofs.«109405_j48120813585001_1_alg».proof.Proof.KernelMaps
import proofs.«109405_j48120813585001_1_alg».proof.Proof.Loss
import Idealize.ShloMosaic.Lib.StableHlo.Run

noncomputable section

open scoped BigOperators
open Idealize.ShloMosaic Idealize.ShloMosaic.TcCoe Idealize.SL.Sem Idealize.ShloMosaic.StableHlo

namespace Cert.KernelIdeal.Result

open Cert.KernelIdeal Cert.KernelIdeal.Gen Cert.KernelIdeal.Maps Cert.ChannelSums Cert.PairLoss Idealize.ShloMosaic.ValueIdx

variable (m : (ℓ : Loc nD τ sig) → Buf (Elt Ideal) ℓ)

/-! ## The contraction after the transpose is the cross products -/

theorem lhs_ax0 (i : S64x64.Idx) (q : dot_S64x576_S576x64_S64x64_1_0_0_1_n_n.contr.Idx) :
    (dot_S64x576_S576x64_S64x64_1_0_0_1_n_n.lhsIdx i q 0).val = (i 0).val := by
  unfold DotDims.lhsIdx
  rw [dif_neg (show ¬(0 : Fin S64x576.rank) ∈ dot_S64x576_S576x64_S64x64_1_0_0_1_n_n.lhsBatch by decide),
    dif_pos (show (0 : Fin S64x576.rank) ∈ dot_S64x576_S576x64_S64x64_1_0_0_1_n_n.lhsNonContracting by decide)]
  rfl
theorem lhs_ax1 (i : S64x64.Idx) (q : dot_S64x576_S576x64_S64x64_1_0_0_1_n_n.contr.Idx) :
    (dot_S64x576_S576x64_S64x64_1_0_0_1_n_n.lhsIdx i q 1).val = (q ⟨0, by decide⟩).val :=
  dot_S64x576_S576x64_S64x64_1_0_0_1_n_n.lhsIdx_val_of_single rfl i q
theorem rhs_ax0 (i : S64x64.Idx) (q : dot_S64x576_S576x64_S64x64_1_0_0_1_n_n.contr.Idx) :
    (dot_S64x576_S576x64_S64x64_1_0_0_1_n_n.rhsIdx i q 0).val = (q ⟨0, by decide⟩).val :=
  dot_S64x576_S576x64_S64x64_1_0_0_1_n_n.rhsIdx_val_of_single rfl i q
theorem rhs_ax1 (i : S64x64.Idx) (q : dot_S64x576_S576x64_S64x64_1_0_0_1_n_n.contr.Idx) :
    (dot_S64x576_S576x64_S64x64_1_0_0_1_n_n.rhsIdx i q 1).val = (i 1).val := by
  unfold DotDims.rhsIdx
  rw [dif_neg (show ¬(1 : Fin S576x64.rank) ∈ dot_S64x576_S576x64_S64x64_1_0_0_1_n_n.rhsBatch by decide),
    dif_pos (show (1 : Fin S576x64.rank) ∈ dot_S64x576_S576x64_S64x64_1_0_0_1_n_n.rhsNonContracting by decide)]
  rfl

/-- The kernel's `dot_general` of the first map with the transposed second map is their cross products. -/
theorem kerCross (Lv Li : FVec Ideal S64x576 .f32) :
    (Host.dotGeneral (F := Ideal) dot_S64x576_S576x64_S64x64_1_0_0_1_n_n (some .fp32) Lv
        (transpose S576x64 [1, 0] Li transposes_S64x576_S576x64_1_0) : FVec Ideal S64x64 .f32)
      = cross Lv Li := by
  funext i
  simp only [Host.dotGeneral]
  rw [Ideal.dotGeneral_apply, ← Equiv.sum_comp (ValueIdx.contrEquiv1 dot_S64x576_S576x64_S64x64_1_0_0_1_n_n 576 rfl rfl).symm]
  unfold cross
  refine Finset.sum_congr rfl fun k _ => ?_
  have hk := ValueIdx.contrEquiv1_symm_val dot_S64x576_S576x64_S64x64_1_0_0_1_n_n 576 rfl rfl k
  have el : dot_S64x576_S576x64_S64x64_1_0_0_1_n_n.lhsIdx i ((ValueIdx.contrEquiv1 dot_S64x576_S576x64_S64x64_1_0_0_1_n_n 576 rfl rfl).symm k)
      = ix2 (⟨(i 0).val, idx2_lt0 i⟩ : Fin 64) k := funext fun a => Fin.ext (by
    match a with
    | ⟨0, _⟩ => exact lhs_ax0 _ _
    | ⟨1, _⟩ => exact (lhs_ax1 _ _).trans hk)
  have er : transpose S576x64 [1, 0] Li transposes_S64x576_S576x64_1_0
        (dot_S64x576_S576x64_S64x64_1_0_0_1_n_n.rhsIdx i ((ValueIdx.contrEquiv1 dot_S64x576_S576x64_S64x64_1_0_0_1_n_n 576 rfl rfl).symm k))
      = Li (ix2 (⟨(i 1).val, idx2_lt1 i⟩ : Fin 64) k) :=
    transpose_apply [1, 0] Li transposes_S64x576_S576x64_1_0 _ (ix2 (⟨(i 1).val, idx2_lt1 i⟩ : Fin 64) k) (fun b => by
      match b with
      | ⟨0, _⟩ => exact ((rhs_ax0 _ _).trans hk).symm
      | ⟨1, _⟩ => exact (rhs_ax1 _ _).symm)
  rw [el, er]

/-! ## The lines before the region: the two arguments flattened -/

theorem xv_eq (c : Dev nD) : xv m c = flat (m ((c : Thread nD τ).loc main_arg0)) := by
  show (V m c main_v0 : S64x2048x576.Idx → EReal) = _
  dsimp only [Gen.V, Gen.V0]
  simp only [Gen.hostOps0, List.flatten_cons, List.flatten_nil, List.append_nil, List.cons_append, List.nil_append]
  after_results
  rfl

theorem xi_eq (c : Dev nD) : xi m c = flat (m ((c : Thread nD τ).loc main_arg1)) := by
  show (V m c main_v1 : S64x2048x576.Idx → EReal) = _
  dsimp only [Gen.V, Gen.V0]
  simp only [Gen.hostOps0, List.flatten_cons, List.flatten_nil, List.append_nil, List.cons_append, List.nil_append]
  after_results
  rfl

/-! ## The lines after the region -/

/-- The two maps the region leaves, at their literal type. -/
abbrev Lv (c : Dev nD) : FVec Ideal S64x576 .f32 := lum (xv m c)
abbrev Li (c : Dev nD) : FVec Ideal S64x576 .f32 := lum (xi m c)

set_option maxRecDepth 8192 in
set_option maxHeartbeats 4000000 in
/-- The program's result after the lines that follow the region: the shared loss of what the region left. -/
theorem tail_eq (c : Dev nD) :
    Pipeline.afterTail₀ cfgs (dats m) 0 (V0 m) [hostOps1, hostOps1_1, hostOps1_2, hostOps1_3] c main_v43
      = loss (F := Ideal) (Lv m c) (Li m c)
          (Host.dotGeneral (F := Ideal) dot_S64x576_S576x64_S64x64_1_0_0_1_n_n (some .fp32) (Lv m c)
            (transpose S576x64 [1, 0] (Li m c) transposes_S64x576_S576x64_1_0))
          (m ((c : Thread nD τ).loc main_arg2)) := by
  have h2 : Pipeline.withArrays (cfgs 0).spec c (V0 m c) (fun w => (dats m 0 c).arrAt w (cfgs 0).N) (Proc.devRef .tc main_v2_0) = Lv m c :=
    (Pipeline.withArrays_arr spec0 launch0.win.arr_inj c _ _ 2).trans (finalV m c)
  have h3 : Pipeline.withArrays (cfgs 0).spec c (V0 m c) (fun w => (dats m 0 c).arrAt w (cfgs 0).N) (Proc.devRef .tc main_v2_1) = Li m c :=
    (Pipeline.withArrays_arr spec0 launch0.win.arr_inj c _ _ 3).trans (finalI m c)
  have hl : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  simp only [hostOps1, hostOps1_1, hostOps1_2, hostOps1_3, List.flatten_cons, List.flatten_nil, List.append_nil, List.cons_append,
    List.nil_append]
  after_results_simp
  simp only [TRef.ofBuf, TRef.toBuf, cast_eq]
  rw [h2, h3, hl]
  rfl

/-- So the kernel's result is the common specification of its arguments. -/
theorem result_eq (c : Dev nD) :
    Pipeline.afterTail₀ cfgs (dats m) 0 (V0 m) [hostOps1, hostOps1_1, hostOps1_2, hostOps1_3] c main_v43
      = spec (m ((c : Thread nD τ).loc main_arg0)) (m ((c : Thread nD τ).loc main_arg1)) (m ((c : Thread nD τ).loc main_arg2)) := by
  rw [tail_eq, kerCross]
  show loss (F := Ideal) (lum (xv m c)) (lum (xi m c)) (cross (lum (xv m c)) (lum (xi m c))) _ = _
  rw [xv_eq, xi_eq]
  rfl

end Cert.KernelIdeal.Result

end
-- ==== Proof.ReferenceMaps.lean ====
/-
  The reference, read against the shared vocabulary.

  The reference squares each [64, 2048, 24, 24] argument, sums over the channel axis and only then merges the two pixel
  axes into one of 576; the kernel merges first. Both are the channel sum of squares `lum` of the argument read as a
  [64, 2048, 576] array (`flat`): pixel `p` of the merged axis is (p / 24, p % 24) of the two (`refMap`). Its
  `dot_general` contracts the pixel axis of both maps, which is `cross` word for word, and everything after is the shared
  `loss`.
-/
import proofs.«109405_j48120813585001_1_alg».proof.Proof.RefRead
import proofs.«109405_j48120813585001_1_alg».proof.Proof.ChannelSums
import proofs.«109405_j48120813585001_1_alg».proof.Proof.Loss

noncomputable section

open scoped BigOperators
open Idealize.ShloMosaic

namespace Cert.ReferenceIdeal.Maps

open Cert.ReferenceIdeal Cert.ReferenceIdeal.Gen Cert.ReferenceIdeal.ReadP Cert.ChannelSums Cert.PairLoss Idealize.ShloMosaic.ValueIdx

/-- Each of the reference's maps, given its square-sum-reshape chain read at an index, is `lum` of the flattened argument. -/
theorem map_eq (a : (⟨4, ![64, 2048, 24, 24]⟩ : Shape).Idx → EReal) (L : (⟨2, ![64, 576]⟩ : Shape).Idx → EReal)
    (hL : ∀ i : (⟨2, ![64, 576]⟩ : Shape).Idx, L i = 0 + ∑ k : Fin 2048, a (idx_main_v1 (idx_main_v2 i) k) * a (idx_main_v1 (idx_main_v2 i) k)) :
    L = lum (flat a) := by
  funext i
  rw [hL i, zero_add]
  unfold lum
  refine Finset.sum_congr rfl fun k _ => ?_
  have hi0 : (i 0).val < 64 := idx2_lt0 i
  have hi1 : (i 1).val < 576 := idx2_lt1 i
  have e : flat a (ix3 (⟨(i 0).val, idx2_lt0 i⟩ : Fin 64) k (⟨(i 1).val, idx2_lt1 i⟩ : Fin 576)) = a (idx_main_v1 (idx_main_v2 i) k) :=
    shapeCast_apply a (by decide) _ (idx_main_v1 (idx_main_v2 i) k) (by
      rw [Shape.rowMajor_val_four, Shape.rowMajor_val_three]
      show ((((i 0).val * 576 + (i 1).val) / 576 * 2048 + k.val) * 24 + ((i 0).val * 576 + (i 1).val) / 24 % 24) * 24
          + ((i 0).val * 576 + (i 1).val) % 24 = ((i 0).val * 2048 + k.val) * 576 + (i 1).val
      have hk : k.val < 2048 := k.isLt
      omega)
  rw [e]

/-- The reference's first map. -/
theorem refMap_v (a0 : (⟨S64x2048x24x24, .f32⟩ : BufTy).Contents (Elt Ideal)) : val_main_v2 (F := Ideal) a0 = lum (flat a0) :=
  map_eq a0 _ fun i => by
    rw [val_main_v2_apply, val_main_v1_apply]
    show Ideal.ofBits .f32 0x00000000#32 + _ = _
    rw [Ideal.ofBits_zero_f32]
    rfl

/-- The reference's second map. -/
theorem refMap_i (a1 : (⟨S64x2048x24x24, .f32⟩ : BufTy).Contents (Elt Ideal)) : val_main_v5 (F := Ideal) a1 = lum (flat a1) :=
  map_eq a1 _ fun i => by
    rw [val_main_v5_apply, val_main_v4_apply]
    show Ideal.ofBits .f32 0x00000000#32 + _ = _
    rw [Ideal.ofBits_zero_f32]
    rfl

/-- The reference's `dot_general` of its two maps is their cross products. -/
theorem refCross (a0 a1 : (⟨S64x2048x24x24, .f32⟩ : BufTy).Contents (Elt Ideal)) :
    val_main_v14 (F := Ideal) a0 a1 = cross (val_main_v2 (F := Ideal) a0) (val_main_v5 (F := Ideal) a1) := by
  funext i
  rw [val_main_v14_apply]
  unfold cross
  refine Finset.sum_congr rfl fun k _ => ?_
  have el : lidx_main_v14 i k = ix2 (⟨(i 0).val, idx2_lt0 i⟩ : Fin 64) k :=
    funext fun a => Fin.ext (by match a with | ⟨0, _⟩ => rfl | ⟨1, _⟩ => rfl)
  have er : ridx_main_v14 i k = ix2 (⟨(i 1).val, idx2_lt1 i⟩ : Fin 64) k :=
    funext fun a => Fin.ext (by match a with | ⟨0, _⟩ => rfl | ⟨1, _⟩ => rfl)
  rw [el, er]

/-- The reference's result is the shared loss of its two maps, their `dot_general` and the labels. -/
theorem refLoss (a0 a1 : (⟨S64x2048x24x24, .f32⟩ : BufTy).Contents (Elt Ideal)) (lab : (⟨S64, .i32⟩ : BufTy).Contents (Elt Ideal)) :
    val_main_v45 (F := Ideal) a0 a1 lab
      = loss (F := Ideal) (val_main_v2 (F := Ideal) a0) (val_main_v5 (F := Ideal) a1) (val_main_v14 (F := Ideal) a0 a1) lab := rfl

/-- So the reference's result is the common specification of its arguments. -/
theorem ref_spec (a0 a1 : (⟨S64x2048x24x24, .f32⟩ : BufTy).Contents (Elt Ideal)) (lab : (⟨S64, .i32⟩ : BufTy).Contents (Elt Ideal)) :
    val_main_v45 (F := Ideal) a0 a1 lab = spec a0 a1 lab := by
  rw [refLoss, refCross, refMap_v, refMap_i]
  rfl

end Cert.ReferenceIdeal.Maps

end
-- ==== Proof.lean ====
/-
  The certificate's claims assembled.

  At the ideal values both programs compute one function of the three arguments (`Cert.PairLoss.spec`): flatten each
  [64, 2048, 24, 24] input to [64, 2048, 576], take the channel sum of squares `L (b, p) = ∑ c, x (b, c, p) * x (b, c, p)` of
  each, and from the two [64, 576] maps and the labels form the pairwise loss — row means of the squared maps, the cross
  products `∑ p, Lv (i, p) * Li (j, p)`, `mean_v i + mean_i j - 2 * cross (i, j) / 576`, averaged over the pairs of distinct
  rows with equal labels (zero when there is none).
  The kernel reaches the maps by accumulating, per block of 16 batch rows, the squares of 16 successive blocks of 128
  channels into a resident accumulator that starts at zero, and writes each accumulator back once, after the last channel
  block (Proof/KernelMaps.lean over Proof/ChannelSums.lean); the reference sums all 2048 channels at once and flattens
  afterwards (Proof/ReferenceMaps.lean). Sixteen runs of 128 channels are the 2048 channels, and the extended reals' addition is
  commutative and associative: no finiteness of the inputs is used. The kernel contracts the first map with the transposed
  second map, the reference contracts the two maps' pixel axes directly: both are the cross products
  (`kerCross`, `refCross`). From there on the two programs are the same text (Proof/Loss.lean).
  The three frames are the generated ones (the reference's: its run with the result dropped), and the idealization
  rewrote nothing.
-/
import proofs.«109405_j48120813585001_1_alg».proof.Defs
import proofs.«109405_j48120813585001_1_alg».proof.Proof.Gen.Kernel
import proofs.«109405_j48120813585001_1_alg».proof.Proof.Gen.Kernel.Skeleton
import proofs.«109405_j48120813585001_1_alg».proof.Proof.Gen.Kernel.Launch
import proofs.«109405_j48120813585001_1_alg».proof.Proof.Gen.Kernel.Points
import proofs.«109405_j48120813585001_1_alg».proof.Proof.Gen.Kernel.Frame
import proofs.«109405_j48120813585001_1_alg».proof.Proof.Gen.KernelIdeal
import proofs.«109405_j48120813585001_1_alg».proof.Proof.Gen.KernelIdeal.Skeleton
import proofs.«109405_j48120813585001_1_alg».proof.Proof.Gen.KernelIdeal.Launch
import proofs.«109405_j48120813585001_1_alg».proof.Proof.Gen.KernelIdeal.Points
import proofs.«109405_j48120813585001_1_alg».proof.Proof.Gen.KernelIdeal.Frame
import proofs.«109405_j48120813585001_1_alg».proof.Proof.Gen.ReferenceIdeal
import proofs.«109405_j48120813585001_1_alg».proof.Proof.Gen.Pre_finite_inputs
import proofs.«109405_j48120813585001_1_alg».proof.Proof.KernelLoss
import proofs.«109405_j48120813585001_1_alg».proof.Proof.ReferenceMaps
import Idealize.ShloMosaic.Adequacy
import Idealize.ShloMosaic.Init

noncomputable section

namespace Cert.Proof

open Idealize.ShloMosaic Idealize.ShloMosaic.TcCoe Idealize.SL.Sem

/-- The idealized kernel's run, read: its result is the common specification of its arguments, which end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v43)
            = Cert.PairLoss.spec (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h c).2 Cert.KernelIdeal.main_v43 (Pipeline.mem_restRefs_of Cert.KernelIdeal.main_v43 (by decide) (by decide))).trans
        (Cert.KernelIdeal.Result.result_eq m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c)⟩)
    (Cert.KernelIdeal.Gen.run_main m ρ)

/-- From memories that agree on the arguments both idealized programs end at the common specification. -/
theorem algebraic : Cert.algebraic_KernelIdeal_ReferenceIdeal := by
  intro m ρ m' ρ' _ hagree
  refine ⟨fun c => Cert.PairLoss.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), kernel_run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v45_eq _ _ _).trans ((Cert.ReferenceIdeal.Maps.ref_spec _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
